-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x512 : Shape := ⟨3, ![512, 128, 512]⟩
abbrev S128x1024 : Shape := ⟨2, ![128, 1024]⟩
abbrev S1024x512 : Shape := ⟨2, ![1024, 512]⟩
abbrev S1024 : Shape := ⟨1, ![1024]⟩
abbrev S1024x1024 : Shape := ⟨2, ![1024, 1024]⟩
abbrev S_ : Shape := ⟨0, ![]⟩

class Facts : Prop where
  bcast_S_S512x128x512 : S_.BroadcastsInDim S512x128x512 (![] : Fin 0 → Fin S512x128x512.rank)
  reducesTo_S512x128x512_S_d0_1_2 : S512x128x512.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S512x128x512 .f32) (main_arg1 : FVec F S128x1024 .f32) (main_arg2 : FVec F S1024x512 .f32) (main_arg3 : FVec F S1024 .f32) (main_arg4 : FVec F S1024x1024 .f32) (main_arg5 : FVec F S1024 .f32) : IVec S_ 1 :=
  let main_v0 : FVec F S512x128x512 .f32 := Host.absf main_arg0
  let main_cst : FVec F S_ .f32 := constant S_ .f32 0x7F800000#32
  let main_v1 : FVec F S512x128x512 .f32 := broadcastInDim S512x128x512 ![] bcast_S_S512x128x512 main_cst
  let main_v2 : IVec S512x128x512 1 := cmpf .olt main_v0 main_v1
  let main_c : IVec S_ 1 := constantI S_ 1 1#1
  let main_v3 : IVec S_ 1 := (fun x v => Host.reduce IntOp.andi x v reducesTo_S512x128x512_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S512x128x512 : Shape := ⟨3, ![512, 128, 512]⟩
abbrev S128x1024 : Shape := ⟨2, ![128, 1024]⟩
abbrev S1024x512 : Shape := ⟨2, ![1024, 512]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S512x128x1024 : Shape := ⟨3, ![512, 128, 1024]⟩
abbrev S8x128x512 : Shape := ⟨3, ![8, 128, 512]⟩
abbrev S8x128x1024 : Shape := ⟨3, ![8, 128, 1024]⟩
abbrev S1x128x1024 : Shape := ⟨3, ![1, 128, 1024]⟩

abbrev nBuf : Space → Nat
  | .hbm => 16
  | .vmem => 8
  | .smem => 0
  | _ => 0

abbrev bufTy : (tb : Table) → Fin (tcTables nBuf tb) → BufTy
  | .hbm, ⟨0, _⟩ => ⟨S512x128x512, .f32⟩
  | .hbm, ⟨1, _⟩ => ⟨S128x1024, .f32⟩
  | .hbm, ⟨2, _⟩ => ⟨S1024x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S1024x1024, .f32⟩
  | .hbm, ⟨9, _⟩ => ⟨S1024x1024, .bf16⟩
  | .hbm, ⟨10, _⟩ => ⟨S128x1024, .bf16⟩
  | .hbm, ⟨11, _⟩ => ⟨S128x1024, .f32⟩
  | .hbm, ⟨12, _⟩ => ⟨S1x1024, .f32⟩
  | .hbm, ⟨13, _⟩ => ⟨S128x1024, .f32⟩
  | .hbm, ⟨14, _⟩ => ⟨S128x1024, .f32⟩
  | .hbm, ⟨15, _⟩ => ⟨S512x128x1024, .f32⟩
  | .local _ .vmem, ⟨0, _⟩ => ⟨S8x128x512, .f32⟩
  | .local _ .vmem, ⟨1, _⟩ => ⟨S8x128x512, .f32⟩
  | .local _ .vmem, ⟨2, _⟩ => ⟨S512x1024, .bf16⟩
  | .local _ .vmem, ⟨3, _⟩ => ⟨S1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .f32⟩
  | .local _ .vmem, ⟨7, _⟩ => ⟨S8x128x1024, .f32⟩
  | _, _ => ⟨S512x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1024x512_S512x1024_1_0 : S1024x512.Transposes [1, 0] S512x1024
  bitsLt_bf16_f32 : FTy.bits .bf16 < FTy.bits .f32
  transposes_S1024x1024_S1024x1024_1_0 : S1024x1024.Transposes [1, 0] S1024x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  inb_S8x128x512_S8x128x512_0_0_0 : ∀ a, (![0, 0, 0] : Fin 3 → Nat) a + S8x128x512.size a ≤ S8x128x512.size a
  h_S8x128x512 : 0 < S8x128x512.numel
  shapeCasts_S8x128x512_S1024x512 : S8x128x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S8x128x1024 : S1024x1024.ShapeCasts S8x128x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  shapeCasts_S128x1024_S1x128x1024 : S128x1024.ShapeCasts S1x128x1024
  broadcasts_S1x128x1024_S8x128x1024 : S1x128x1024.Broadcasts S8x128x1024
  inb_S8x128x1024_S8x128x1024_0_0_0 : ∀ a, (![0, 0, 0] : Fin 3 → Nat) a + S8x128x1024.size a ≤ S8x128x1024.size a
  h_S8x128x1024 : 0 < S8x128x1024.numel
  dot_S128x1024_S1024x1024_S128x1024_1_0_0_1_n_n_wf : DotDims.WF S128x1024 S1024x1024 S128x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S512x128x512.size a
  hwx0_0 : ∀ i : grid0.Coords, EltTy.bits .f32 = 32 ∨ (Rect.block (s := S512x128x512) S8x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .f32 = 32 ∨ (Rect.block (s := S128x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128x1024.size a ≤ S512x128x1024.size a
  hwx0_5 : ∀ i : grid0.Coords, EltTy.bits .f32 = 32 ∨ (Rect.block (s := S512x128x1024) S8x128x1024.size (cc0_transform_5 i) (hinb0_5 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S8x128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x128x512 : Shape := ⟨3, ![512, 128, 512]⟩
abbrev S128x1024 : Shape := ⟨2, ![128, 1024]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S512x128x1024 : Shape := ⟨3, ![512, 128, 1024]⟩
abbrev S1x1x1024 : Shape := ⟨3, ![1, 1, 1024]⟩
abbrev S1x128x1024 : Shape := ⟨3, ![1, 128, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S512x128x512, .f32⟩
  | .hbm, ⟨1, _⟩ => ⟨S128x1024, .f32⟩
  | .hbm, ⟨2, _⟩ => ⟨S1024x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S128x1024, .f32⟩
  | .hbm, ⟨8, _⟩ => ⟨S1x1024, .f32⟩
  | .hbm, ⟨9, _⟩ => ⟨S128x1024, .f32⟩
  | .hbm, ⟨10, _⟩ => ⟨S128x1024, .f32⟩
  | .hbm, ⟨11, _⟩ => ⟨S512x128x1024, .f32⟩
  | .hbm, ⟨12, _⟩ => ⟨S1x1x1024, .f32⟩
  | .hbm, ⟨13, _⟩ => ⟨S512x128x1024, .f32⟩
  | .hbm, ⟨14, _⟩ => ⟨S512x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S512x128x1024, .f32⟩
  | .hbm, ⟨21, _⟩ => ⟨S512x128x1024, .f32⟩
  | .hbm, ⟨22, _⟩ => ⟨S_, .f32⟩
  | .hbm, ⟨23, _⟩ => ⟨S512x128x1024, .f32⟩
  | .hbm, ⟨24, _⟩ => ⟨S512x128x1024, .f32⟩
  | .hbm, ⟨25, _⟩ => ⟨S_, .f32⟩
  | .hbm, ⟨26, _⟩ => ⟨S512x128x1024, .f32⟩
  | .hbm, ⟨27, _⟩ => ⟨S512x128x1024, .f32⟩
  | .hbm, ⟨28, _⟩ => ⟨S512x128x1024, .f32⟩
  | .hbm, ⟨29, _⟩ => ⟨S512x128x1024, .f32⟩
  | _, _ => ⟨S512x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S1024_S1x1x1024_2 : S1024.BroadcastsInDim S1x1x1024 (![2] : Fin 1 → Fin S1x1x1024.rank)
  bcast_S1x1x1024_S512x128x1024_0_1_2 : S1x1x1024.BroadcastsInDim S512x128x1024 (![0, 1, 2] : Fin 3 → Fin S512x128x1024.rank)
  bcast_S128x1024_S1x128x1024_1_2 : S128x1024.BroadcastsInDim S1x128x1024 (![1, 2] : Fin 2 → Fin S1x128x1024.rank)
  bcast_S_S1x128x1024 : S_.BroadcastsInDim S1x128x1024 (![] : Fin 0 → Fin S1x128x1024.rank)
  bcast_S1x128x1024_S512x128x1024_0_1_2 : S1x128x1024.BroadcastsInDim S512x128x1024 (![0, 1, 2] : Fin 3 → Fin S512x128x1024.rank)
  bcast_S_S512x128x1024 : S_.BroadcastsInDim S512x128x1024 (![] : Fin 0 → Fin S512x128x1024.rank)
  dot_S128x1024_S1024x1024_S128x1024_1_0_0_1_n_n_wf : DotDims.WF S128x1024 S1024x1024 S128x1024 [1] [0] [0] [1] [] []
  dot_S512x128x512_S1024x512_S512x128x1024_2_1_01_0_n_n_wf : DotDims.WF S512x128x512 S1024x512 S512x128x1024 [2] [1] [0, 1] [0] [] []

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S512x128x512_S1024x512_S512x128x1024_2_1_01_0_n_n : DotDims S512x128x512 S1024x512 S512x128x1024 where
  lhsContracting := [2]
  rhsContracting := [1]
  lhsNonContracting := [0, 1]
  rhsNonContracting := [0]
  lhsBatch := []
  rhsBatch := []
  wf := dot_S512x128x512_S1024x512_S512x128x1024_2_1_01_0_n_n_wf

class Facts : Prop extends Facts₀ where

variable [Facts]
-- ==== Proof.LeakyStep.lean ====
/-
  One step of a leaky-integrator layer, as ONE function of the argument arrays over the extended reals.

  With `x : [T, B, D]` the inputs over time, `hid : [B, H]` the state every step starts from, `win : [H, D]` the input
  weights, `bin : [H]` their bias and `rec : [B, H]` the recurrent drive (the state through the recurrent weights, plus
  its bias — the same array at every time step), entry `(t, b, h)` of the result is

      hid (b, h) · keep  +  gain · max ( ( Σ_k x (t, b, k) · win (h, k)  +  bin h )  +  rec (b, h) ,  0 )

  where `keep` and `gain` are the two f32 words `1 - dt/τ` and `dt/τ` were rounded to. Both words are carried as they
  are printed: the two programs hold the same words, so their values are never needed.
  The grouping of the sums is the one both programs use; no distributivity or cancellation is involved, so the
  function is meaningful — and the two programs agree on it — at infinite entries too.
-/
import Idealize.ShloMosaic.PureOps.Ideal
import Idealize.ShloMosaic.Lib.ValueIdx

noncomputable section

open scoped BigOperators

namespace Cert.LeakyStep

open Idealize.ShloMosaic Idealize.ShloMosaic.ValueIdx

/-- The retained share of the state, `1 - dt/τ` as its f32 word. -/
abbrev keep : EReal := Ideal.ofBits .f32 0x3F666666#32

/-- The share of the rectified drive, `dt/τ` as its f32 word. -/
abbrev gain : EReal := Ideal.ofBits .f32 0x3DCCCCCD#32

/-- The drive of unit `h` for batch row `b` at time `t`: the input projection with its bias, plus the recurrent drive. -/
def drive (x : (⟨3, ![512, 128, 512]⟩ : Shape).Idx → EReal) (win : (⟨2, ![1024, 512]⟩ : Shape).Idx → EReal)
    (bin : (⟨1, ![1024]⟩ : Shape).Idx → EReal) (rec : (⟨2, ![128, 1024]⟩ : Shape).Idx → EReal)
    (t : Fin 512) (b : Fin 128) (h : Fin 1024) : EReal :=
  ((∑ k : Fin 512, x (ix3 t b k) * win (ix2 h k)) + bin (ix1 h)) + rec (ix2 b h)

/-- One entry of the step: the retained state plus the gained, rectified drive. -/
def stepAt (x : (⟨3, ![512, 128, 512]⟩ : Shape).Idx → EReal) (hid : (⟨2, ![128, 1024]⟩ : Shape).Idx → EReal)
    (win : (⟨2, ![1024, 512]⟩ : Shape).Idx → EReal) (bin : (⟨1, ![1024]⟩ : Shape).Idx → EReal)
    (rec : (⟨2, ![128, 1024]⟩ : Shape).Idx → EReal) (t : Fin 512) (b : Fin 128) (h : Fin 1024) : EReal :=
  hid (ix2 b h) * keep + gain * max (drive x win bin rec t b h) 0

/-- The whole result array. -/
def step (x : (⟨3, ![512, 128, 512]⟩ : Shape).Idx → EReal) (hid : (⟨2, ![128, 1024]⟩ : Shape).Idx → EReal)
    (win : (⟨2, ![1024, 512]⟩ : Shape).Idx → EReal) (bin : (⟨1, ![1024]⟩ : Shape).Idx → EReal)
    (rec : (⟨2, ![128, 1024]⟩ : Shape).Idx → EReal) : (⟨3, ![512, 128, 1024]⟩ : Shape).Idx → EReal :=
  fun i => stepAt x hid win bin rec (i 0) (i 1) (i 2)

theorem step_apply (x : (⟨3, ![512, 128, 512]⟩ : Shape).Idx → EReal) (hid : (⟨2, ![128, 1024]⟩ : Shape).Idx → EReal)
    (win : (⟨2, ![1024, 512]⟩ : Shape).Idx → EReal) (bin : (⟨1, ![1024]⟩ : Shape).Idx → EReal)
    (rec : (⟨2, ![128, 1024]⟩ : Shape).Idx → EReal) (t : Fin 512) (b : Fin 128) (h : Fin 1024) :
    step x hid win bin rec (ix3 t b h) = stepAt x hid win bin rec t b h := rfl

end Cert.LeakyStep

end
-- ==== Proof.BodyStep.lean ====
/-
  The kernel body's stored value, read at one entry of its block.

  The body handles eight time steps at once. It unfolds its input block `[8, 128, 512]` into `1024` rows of length
  `512` (row `p · 128 + b` is time step `p`, batch row `b`), multiplies by the transposed input weights in one matrix
  product into a zero accumulator, adds the input bias along rows, folds the rows back into `[8, 128, 1024]`, adds the
  recurrent drive (the same `[128, 1024]` array for each of the eight steps), rectifies, and mixes with the state.
  Read at block entry `(p, b, h)`, every re-laying operation is a re-reading at explicit coordinates, the matrix
  product is the sum over the contracted coordinate, and a change of float format is the identity; so the stored
  value there is

      state (b, h) · keep + gain · max ( ( Σ_k block (p, b, k) · wT (k, h) + bias h ) + rec (b, h) , 0 ).
-/
import proofs.«103562_j50208167690605_1_alg».proof.Proof.Gen.KernelIdeal.Skeleton
import proofs.«103562_j50208167690605_1_alg».proof.Proof.LeakyStep
import Idealize.ShloMosaic.Lib.ValueIdx
import Idealize.ShloMosaic.Lib.Pipeline.Value
import Idealize.ShloMosaic.PureOps.Ideal.Laws

noncomputable section

open scoped BigOperators

namespace Cert.KernelIdeal.BodyStep

open Cert.KernelIdeal Cert.KernelIdeal.Gen Idealize.ShloMosaic Idealize.ShloMosaic.ValueIdx Cert.LeakyStep

/-! ## The re-laying operations at explicit coordinates -/

/-- Row `p · 128 + b` of the unfolded block: time step `p` of the eight, batch row `b`. -/
def row (p : Fin 8) (b : Fin 128) : Fin 1024 := ⟨p.val * 128 + b.val, by have := p.isLt; have := b.isLt; omega⟩

section Layout
variable {α : Type}

/-- Unfolding `[8, 128, 512]` into rows: row `p · 128 + b`, column `k` is entry `(p, b, k)`. -/
theorem unfold_rows (y : S8x128x512.Idx → α) (p : Fin 8) (b : Fin 128) (k : Fin 512) :
    shapeCast S1024x512 y shapeCasts_S8x128x512_S1024x512 (ix2 (row p b) k) = y (ix3 p b k) :=
  shapeCast_apply y shapeCasts_S8x128x512_S1024x512 (ix2 (row p b) k) (ix3 p b k) (by
    rw [Shape.rowMajor_val_two, Shape.rowMajor_val_three]; rfl)

/-- Folding the `1024` rows back: entry `(p, b, h)` is row `p · 128 + b`, column `h`. -/
theorem fold_rows (y : S1024x1024.Idx → α) (p : Fin 8) (b : Fin 128) (h : Fin 1024) :
    shapeCast S8x128x1024 y shapeCasts_S1024x1024_S8x128x1024 (ix3 p b h) = y (ix2 (row p b) h) :=
  shapeCast_apply y shapeCasts_S1024x1024_S8x128x1024 (ix3 p b h) (ix2 (row p b) h) (by
    rw [Shape.rowMajor_val_two, Shape.rowMajor_val_three]; rfl)

/-- A vector viewed as one row. -/
theorem as_row (y : S1024.Idx → α) (h : Fin 1024) :
    shapeCast S1x1024 y shapeCasts_S1024_S1x1024 (ix2 (0 : Fin 1) h) = y (ix1 h) :=
  shapeCast_apply y shapeCasts_S1024_S1x1024 (ix2 (0 : Fin 1) h) (ix1 h) (by
    rw [Shape.rowMajor_val_one, Shape.rowMajor_val_two]
    show h.val = 0 * 1024 + h.val
    omega)

/-- That row repeated down the `1024` rows. -/
theorem down_rows (y : S1x1024.Idx → α) (r : Fin 1024) (h : Fin 1024) :
    broadcastTo S1024x1024 y broadcasts_S1x1024_S1024x1024 (ix2 r h) = y (ix2 (0 : Fin 1) h) :=
  broadcastTo_apply y broadcasts_S1x1024_S1024x1024 (ix2 r h) (ix2 (0 : Fin 1) h) (fun a => match a with
    | ⟨0, _⟩ => by show 0 = if (1 : Nat) = 1 then 0 else r.val; rw [if_pos rfl]
    | ⟨1, _⟩ => by show h.val = if (1024 : Nat) = 1 then 0 else h.val; rw [if_neg (by decide)])

/-- A `[128, 1024]` array viewed as one slab `[1, 128, 1024]`. -/
theorem as_slab (y : S128x1024.Idx → α) (b : Fin 128) (h : Fin 1024) :
    shapeCast S1x128x1024 y shapeCasts_S128x1024_S1x128x1024 (ix3 (0 : Fin 1) b h) = y (ix2 b h) :=
  shapeCast_apply y shapeCasts_S128x1024_S1x128x1024 (ix3 (0 : Fin 1) b h) (ix2 b h) (by
    rw [Shape.rowMajor_val_two, Shape.rowMajor_val_three]
    show b.val * 1024 + h.val = (0 * 128 + b.val) * 1024 + h.val
    omega)

/-- That slab repeated over the eight time steps. -/
theorem over_steps (y : S1x128x1024.Idx → α) (p : Fin 8) (b : Fin 128) (h : Fin 1024) :
    broadcastTo S8x128x1024 y broadcasts_S1x128x1024_S8x128x1024 (ix3 p b h) = y (ix3 (0 : Fin 1) b h) :=
  broadcastTo_apply y broadcasts_S1x128x1024_S8x128x1024 (ix3 p b h) (ix3 (0 : Fin 1) b h) (fun a => match a with
    | ⟨0, _⟩ => by show 0 = if (1 : Nat) = 1 then 0 else p.val; rw [if_pos rfl]
    | ⟨1, _⟩ => by show b.val = if (128 : Nat) = 1 then 0 else b.val; rw [if_neg (by decide)]
    | ⟨2, _⟩ => by show h.val = if (1024 : Nat) = 1 then 0 else h.val; rw [if_neg (by decide)])

end Layout

/-! ## The matrix product at an entry -/

theorem lhs_rows_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_rows_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_cols_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_cols_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- Rows times columns into the zero accumulator: entry `(r, h)` is the sum over `k` of `l (r, k) · w (k, h)`. -/
theorem rows_times_cols (l : FVec Ideal S1024x512 .bf16) (w : FVec Ideal S512x1024 .bf16) (r : Fin 1024) (h : Fin 1024) :
    matmul dot_S1024x512_S512x1024_S1024x1024_1_0_0_1_n_n none l w (constant S1024x1024 .f32 0x00000000#32) (ix2 r h)
      = ∑ k : Fin 512, l (ix2 r k) * w (ix2 k h) := by
  show FloatOps.matmul dot_S1024x512_S512x1024_S1024x1024_1_0_0_1_n_n none l w (constant S1024x1024 .f32 0x00000000#32) (ix2 r h) = _
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r h) ((contrEquiv1 dot_S1024x512_S512x1024_S1024x1024_1_0_0_1_n_n 512 rfl rfl).symm k) = ix2 r k := funext fun a => Fin.ext (by
    match a with
    | ⟨0, _⟩ => exact lhs_rows_0 _ _
    | ⟨1, _⟩ => exact (lhs_rows_1 _ _).trans hk)
  have er : dot_S1024x512_S512x1024_S1024x1024_1_0_0_1_n_n.rhsIdx (ix2 r h) ((contrEquiv1 dot_S1024x512_S512x1024_S1024x1024_1_0_0_1_n_n 512 rfl rfl).symm k) = ix2 k h := funext fun a => Fin.ext (by
    match a with
    | ⟨0, _⟩ => exact (rhs_cols_0 _ _).trans hk
    | ⟨1, _⟩ => exact rhs_cols_1 _ _)
  rw [el, er]

/-! ## The stored value at an entry -/

/-- The body's one stored value at block entry `(p, b, h)`, from the five blocks it loaded: the input block `v0`, the
    transposed input weights `v3`, the input bias `v6`, the recurrent drive `v11` and the state `v18`. -/
theorem stored_apply (v0 : Vec Ideal S8x128x512 .f32) (v3 : Vec Ideal S512x1024 .bf16) (v6 : Vec Ideal S1024 .f32)
    (v11 : Vec Ideal S128x1024 .f32) (v18 : Vec Ideal S128x1024 .f32) (p : Fin 8) (b : Fin 128) (h : Fin 1024) :
    k0_pay1 v0 v3 v6 v11 v18 (ix3 p b h)
      = v18 (ix2 b h) * keep + gain * max (((∑ k : Fin 512, v0 (ix3 p b k) * v3 (ix2 k h)) + v6 (ix1 h)) + v11 (ix2 b h)) 0 := by
  unfold k0_pay1
  simp only [addf_apply, mulf_apply, maximumf_apply, broadcast_apply, truncf_apply, over_steps, as_slab, fold_rows,
    rows_times_cols, down_rows, as_row, unfold_rows, shapeCast_self, Ideal.ofBits_def, Ideal.ofBits_zero_f32]

end Cert.KernelIdeal.BodyStep

end
-- ==== Proof.KernelStep.lean ====
/-
  The kernel's result array is the step function of the arrays its region finds.

  The region runs over 64 grid points; point `t` handles the eight time steps `8 t … 8 t + 7`. Its input block is those
  eight slabs of `x`; the other four windows (the transposed input weights, the input bias, the recurrent drive, the
  state) have their whole array as their one block at every point. What point `t` writes back is, entry by entry, the
  body's stored value of those blocks (the payload read at an entry), and each read of a block is a read of its array
  at the block's offset plus the entry's coordinate. So point `t` writes block `t` of the step function; the 64 blocks
  tile the result's time axis, hence the whole array ends as the step function.
  Before the region the host operations have written two of the arrays the windows stage: the input weights
  transposed (a change of float format is the identity here), read at `(k, h)` as the weights at `(h, k)`; and the
  recurrent drive, which stays the array the operations compute.
  So three facts carry the block-by-block result to the whole array: point `t` writes block `t` of one function of the
  arrays; an index lies in a block exactly when each coordinate lies in the block's range; every index lies in some block.
-/
import proofs.«103562_j50208167690605_1_alg».proof.Proof.Gen.KernelIdeal.Value
import proofs.«103562_j50208167690605_1_alg».proof.Proof.BodyStep
import Idealize.ShloMosaic.Lib.StableHlo.Run

noncomputable section

open scoped BigOperators

namespace Cert.KernelIdeal.KernelStep

open Cert.KernelIdeal Cert.KernelIdeal.Gen Cert.KernelIdeal.BodyStep Idealize.ShloMosaic Idealize.ShloMosaic.TcCoe Idealize.SL.Sem
open Idealize.ShloMosaic.StableHlo Idealize.ShloMosaic.ValueIdx Cert.LeakyStep
open Idealize.ShloMosaic.Pipeline (Dat)

variable (m : (ℓ : Loc nD τ sig) → Buf (Elt Ideal) ℓ) (ρ : Dev nD → PrngReg)

/-! ## The arrays the region finds, as functions of literal index types -/

abbrev xArr (c : Dev nD) : S512x128x512.Idx → EReal := V m c main_arg0
abbrev hidArr (c : Dev nD) : S128x1024.Idx → EReal := V m c main_arg1
abbrev winArr (c : Dev nD) : S1024x512.Idx → EReal := V m c main_arg2
abbrev binArr (c : Dev nD) : S1024.Idx → EReal := V m c main_arg3
abbrev wTArr (c : Dev nD) : S512x1024.Idx → EReal := V m c main_v1
abbrev recArr (c : Dev nD) : S128x1024.Idx → EReal := V m c main_v8

/-- The array window 1 stages is the input weights transposed (and re-formatted, which changes no value). -/
theorem wT_eq (c : Dev nD) : wTArr m c
    = truncf (F := Ideal) .bf16 (transpose S512x1024 [1, 0] (m ((c : Thread nD τ).loc main_arg2)) transposes_S1024x512_S512x1024_1_0) bitsLt_bf16_f32 := by
  dsimp only [wTArr, V, hostOps0]
  after_results <;> rfl

/-- Read at `(k, h)` it is the weights at `(h, k)`. -/
theorem wT_apply (c : Dev nD) (k : Fin 512) (h : Fin 1024) : wTArr m c (ix2 k h) = winArr m c (ix2 h k) := by
  refine (congrFun (wT_eq m c) (ix2 k h)).trans ?_
  refine (transpose_apply [1, 0] (m ((c : Thread nD τ).loc main_arg2)) transposes_S1024x512_S512x1024_1_0 (ix2 k h) (ix2 h k) (fun b => match b with
    | ⟨0, _⟩ => rfl
    | ⟨1, _⟩ => rfl)).trans ?_
  exact (congrFun (V_main_arg2 m c) (ix2 h k)).symm

/-! ## The windows' blocks, read at an entry -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 64 points: the input and the output move along the time axis with the
    point, and every other window stays at block zero. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem point_lt (t : Fin cfg0.N) : t.val < 64 := by
  have h := t.isLt
  have e : cfg0.N = 64 := N_0
  omega

/-- The time step that entry `p` of point `t`'s block is. -/
def timeOf (t : Fin cfg0.N) (p : Fin 8) : Fin 512 := ⟨t.val * 8 + p.val, by have := point_lt t; have := p.isLt; omega⟩

/-- The input block at point `t` holds the eight slabs of `x` from time step `8 t` on. -/
theorem xblk_apply (c : Dev nD) (t : Fin cfg0.N) (p : Fin 8) (b : Fin 128) (k : Fin 512) :
    iblk m c 0 t (ix3 p b k) = xArr m c (ix3 (timeOf t p) b k) := by
  obtain ⟨e0, e1, e2, -⟩ := idx_facts t
  show V m c main_arg0 (((cfg0.win 0).blk t).view.emb (ix3 p b k)) = V m c main_arg0 (ix3 (timeOf t p) b k)
  refine congrArg _ (funext fun a => Fin.ext ?_)
  match a with
  | ⟨0, _⟩ => show win0_0.index t (0 : Fin 3) * 8 + 1 * p.val = t.val * 8 + p.val; omega
  | ⟨1, _⟩ => show win0_0.index t (1 : Fin 3) * 128 + 1 * b.val = b.val; omega
  | ⟨2, _⟩ => show win0_0.index t (2 : Fin 3) * 512 + 1 * k.val = k.val; omega

/-- The transposed weights' block is their whole array. -/
theorem wTblk_apply (c : Dev nD) (t : Fin cfg0.N) (k : Fin 512) (h : Fin 1024) :
    iblk m c 1 t (ix2 k h) = wTArr m c (ix2 k h) := by
  obtain ⟨-, -, -, e0, e1, -⟩ := idx_facts t
  show V m c main_v1 (((cfg0.win 1).blk t).view.emb (ix2 k h)) = V m c main_v1 (ix2 k h)
  refine congrArg _ (funext fun a => Fin.ext ?_)
  match a with
  | ⟨0, _⟩ => show win0_1.index t (0 : Fin 2) * 512 + 1 * k.val = k.val; omega
  | ⟨1, _⟩ => show win0_1.index t (1 : Fin 2) * 1024 + 1 * h.val = h.val; omega

/-- The input bias' block is its whole array. -/
theorem binblk_apply (c : Dev nD) (t : Fin cfg0.N) (h : Fin 1024) :
    iblk m c 2 t (ix1 h) = binArr m c (ix1 h) := by
  obtain ⟨-, -, -, -, -, e0, -⟩ := idx_facts t
  show V m c main_arg3 (((cfg0.win 2).blk t).view.emb (ix1 h)) = V m c main_arg3 (ix1 h)
  refine congrArg _ (funext fun a => Fin.ext ?_)
  match a with
  | ⟨0, _⟩ => show win0_2.index t (0 : Fin 1) * 1024 + 1 * h.val = h.val; omega

/-- The recurrent drive's block is its whole array. -/
theorem recblk_apply (c : Dev nD) (t : Fin cfg0.N) (b : Fin 128) (h : Fin 1024) :
    iblk m c 3 t (ix2 b h) = recArr m c (ix2 b h) := by
  obtain ⟨-, -, -, -, -, -, e0, e1, -⟩ := idx_facts t
  show V m c main_v8 (((cfg0.win 3).blk t).view.emb (ix2 b h)) = V m c main_v8 (ix2 b h)
  refine congrArg _ (funext fun a => Fin.ext ?_)
  match a with
  | ⟨0, _⟩ => show win0_3.index t (0 : Fin 2) * 128 + 1 * b.val = b.val; omega
  | ⟨1, _⟩ => show win0_3.index t (1 : Fin 2) * 1024 + 1 * h.val = h.val; omega

/-- The state's block is its whole array. -/
theorem hidblk_apply (c : Dev nD) (t : Fin cfg0.N) (b : Fin 128) (h : Fin 1024) :
    iblk m c 4 t (ix2 b h) = hidArr m c (ix2 b h) := by
  obtain ⟨-, -, -, -, -, -, -, -, e0, e1, -⟩ := idx_facts t
  show V m c main_arg1 (((cfg0.win 4).blk t).view.emb (ix2 b h)) = V m c main_arg1 (ix2 b h)
  refine congrArg _ (funext fun a => Fin.ext ?_)
  match a with
  | ⟨0, _⟩ => show win0_4.index t (0 : Fin 2) * 128 + 1 * b.val = b.val; omega
  | ⟨1, _⟩ => show win0_4.index t (1 : Fin 2) * 1024 + 1 * h.val = h.val; omega

/-- Entry `(p, b, h)` of the output's block at point `t` is the array's entry at time step `8 t + p`. -/
theorem outblk_emb (t : Fin cfg0.N) (p : Fin 8) (b : Fin 128) (h : Fin 1024) :
    ((cfg0.win 5).blk t).view.emb (ix3 p b h) = ix3 (timeOf t p) b h := by
  obtain ⟨-, -, -, -, -, -, -, -, -, -, e0, e1, e2⟩ := idx_facts t
  refine funext fun a => Fin.ext ?_
  match a with
  | ⟨0, _⟩ => show win0_5.index t (0 : Fin 3) * 8 + 1 * p.val = t.val * 8 + p.val; omega
  | ⟨1, _⟩ => show win0_5.index t (1 : Fin 3) * 128 + 1 * b.val = b.val; omega
  | ⟨2, _⟩ => show win0_5.index t (2 : Fin 3) * 1024 + 1 * h.val = h.val; omega

/-! ## What a point writes back, and the whole array -/

/-- The step function of the arrays the region finds. -/
abbrev found (c : Dev nD) : S512x128x1024.Idx → EReal :=
  step (xArr m c) (hidArr m c) (winArr m c) (binArr m c) (recArr m c)

/-- WHAT POINT `t` WRITES BACK is block `t` of the step function of the arrays the region finds. -/
theorem flushed_eq (c : Dev nD) (t : Fin cfg0.N) :
    (dats m 0 c).flushed 5 t = ((cfg0.win 5).blk t).view.read (Elt Ideal) (found m c) := by
  rw [Value.flushed5]
  unfold out0_5
  rw [View.canon_unit_zero hz3]
  simp only [View.ld_unit_zero (S := S8x128x512) hz3, View.ld_unit_zero (S := S512x1024) hz2, View.ld_unit_zero (S := S1024) hz1,
    View.ld_unit_zero (S := S128x1024) hz2]
  funext j
  obtain ⟨p, b, h, rfl⟩ : ∃ (p : Fin 8) (b : Fin 128) (h : Fin 1024), j = ix3 p b h := ⟨j 0, j 1, j 2, eq_ix3 j⟩
  show k0_pay1 (iblk m c 0 t) (iblk m c 1 t) (iblk m c 2 t) (iblk m c 3 t) (iblk m c 4 t) (ix3 p b h)
    = found m c (((cfg0.win 5).blk t).view.emb (ix3 p b h))
  rw [outblk_emb]
  show _ = stepAt (xArr m c) (hidArr m c) (winArr m c) (binArr m c) (recArr m c) (timeOf t p) b h
  refine (stored_apply (iblk m c 0 t) (iblk m c 1 t) (iblk m c 2 t) (iblk m c 3 t) (iblk m c 4 t) p b h).trans ?_
  unfold stepAt drive
  simp only [xblk_apply, wTblk_apply, binblk_apply, recblk_apply, hidblk_apply]
  have hs : (∑ k : Fin 512, xArr m c (ix3 (timeOf t p) b k) * wTArr m c (ix2 k h))
      = ∑ k : Fin 512, xArr m c (ix3 (timeOf t p) b k) * winArr m c (ix2 h k) :=
    Finset.sum_congr rfl fun k _ => congrArg (xArr m c (ix3 (timeOf t p) b k) * ·) (wT_apply m c k h)
  rw [hs]

/-- An index of the array is in point `t`'s block iff each coordinate is in the block's range on its axis. -/
theorem mem_blk (t : Fin cfg0.N) (i : S512x128x1024.Idx) :
    i ∈ ((cfg0.win 5).blk t).view.set ↔ ∀ a : Fin 3, win0_5.index t a * S8x128x1024.size a ≤ (i a).val ∧ (i a).val < win0_5.index t a * S8x128x1024.size a + S8x128x1024.size a := by
  show i ∈ ((View.whole main_v9).slice (win0_5.rect t)).set ↔ _
  rw [View.set_slice_whole, Rect.mem_set_unit]
  exact Iff.rfl

/-- Every index of the result is in the block of the point its time step belongs to. -/
theorem cover (i : S512x128x1024.Idx) : ∃ t : Fin cfg0.N, (cfg0.win 5).flush t = true ∧ i ∈ ((cfg0.win 5).blk t).view.set := by
  have hi0 : (i 0).val < 512 := (i 0).isLt
  have hi1 : (i 1).val < 128 := (i 1).isLt
  have hi2 : (i 2).val < 1024 := (i 2).isLt
  have e : cfg0.N = 64 := N_0
  let t : Fin cfg0.N := ⟨(i 0).val / 8, by omega⟩
  obtain ⟨-, -, -, -, -, -, -, -, -, -, e0, e1, e2⟩ := idx_facts t
  have ht : t.val = (i 0).val / 8 := rfl
  refine ⟨t, flush0_5 t, ?_⟩
  rw [mem_blk]
  intro a
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 128 ≤ (i 1).val ∧ (i 1).val < win0_5.index t (1 : Fin 3) * 128 + 128; omega
  | ⟨2, _⟩ => show win0_5.index t (2 : Fin 3) * 1024 ≤ (i 2).val ∧ (i 2).val < win0_5.index t (2 : Fin 3) * 1024 + 1024; omega

/-- THE ARRAY after the run: the step function of the argument arrays as launched and of the recurrent drive the host
    operations computed from them. -/
theorem final (c : Dev nD) : (dats m 0 c).arrAt 5 cfg0.N
    = step (m ((c : Thread nD τ).loc main_arg0)) (m ((c : Thread nD τ).loc main_arg1)) (m ((c : Thread nD τ).loc main_arg2))
        (m ((c : Thread nD τ).loc main_arg3)) (recArr m c) := by
  rw [(dats m 0 c).arrAt_eq_of_cover 5 (found m c) (fun t _ => flushed_eq m c t) cover]
  show step (V m c main_arg0) (V m c main_arg1) (V m c main_arg2) (V m c main_arg3) (recArr m c) = _
  rw [V_main_arg0, V_main_arg1, V_main_arg2, V_main_arg3]

/-- The frame run re-posted: the result array at the step function of the arguments, the arguments unchanged. -/
theorem run : θ_run defs (onTc (τ := τ) (main (F := Ideal))) ⟨m, fun _ => 0, ρ⟩ fun r => ∀ c : Dev nD,
      r.2.mem ((c : Thread nD τ).loc main_v9)
        = step (m ((c : Thread nD τ).loc main_arg0)) (m ((c : Thread nD τ).loc main_arg1)) (m ((c : Thread nD τ).loc main_arg2))
            (m ((c : Thread nD τ).loc main_arg3)) (recArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KernelStep

end
-- ==== Proof.RefStep.lean ====
/-
  The reference computes the step function.

  Its @main is read one operation at a time: the result's entry `(t, b, h)` is the state entry `(b, h)` times the
  `keep` word, plus the `gain` word times the rectified sum of three things — the contraction over `k` of
  `x (t, b, k) · W_in (h, k)`, the input bias at `h`, and the recurrent drive at `(b, h)`, which is the operations'
  own array `hid · W_hᵀ + b_h`, kept here as the array it is. Every broadcast only re-reads a smaller array at the
  trailing coordinates, so the composed index maps are the coordinate projections written below.
-/
import proofs.«103562_j50208167690605_1_alg».proof.Proof.Gen.ReferenceIdeal.Read
import proofs.«103562_j50208167690605_1_alg».proof.Proof.LeakyStep

noncomputable section

open scoped BigOperators

namespace Cert.ReferenceIdeal.RefStep

open Cert.ReferenceIdeal Cert.ReferenceIdeal.Read Idealize.ShloMosaic Idealize.ShloMosaic.ValueIdx Cert.LeakyStep

/-- The state is re-read at the two trailing coordinates. -/
theorem hid_idx (i : S512x128x1024.Idx) : idx_main_v9 (idx_main_v18 i) = ix2 (i 1) (i 2) :=
  funext fun a => Fin.ext (by match a with | ⟨0, _⟩ => rfl | ⟨1, _⟩ => rfl)

/-- So is the recurrent drive. -/
theorem rec_idx (i : S512x128x1024.Idx) : idx_main_v12 (idx_main_v13 i) = ix2 (i 1) (i 2) :=
  funext fun a => Fin.ext (by match a with | ⟨0, _⟩ => rfl | ⟨1, _⟩ => rfl)

/-- The input bias is re-read at the last coordinate. -/
theorem bin_idx (i : S512x128x1024.Idx) : idx_main_v6 (idx_main_v7 i) = ix1 (i 2) :=
  funext fun a => Fin.ext (by match a with | ⟨0, _⟩ => rfl)

/-- The contraction's left factor is the input at `(t, b, k)`. -/
theorem x_idx (i : S512x128x1024.Idx) (k : Fin 512) : lidx_main_v5 i k = ix3 (i 0) (i 1) k :=
  funext fun a => Fin.ext (by match a with | ⟨0, _⟩ => rfl | ⟨1, _⟩ => rfl | ⟨2, _⟩ => rfl)

/-- Its right factor is the input weight at `(h, k)`. -/
theorem win_idx (i : S512x128x1024.Idx) (k : Fin 512) : ridx_main_v5 i k = ix2 (i 2) k :=
  funext fun a => Fin.ext (by match a with | ⟨0, _⟩ => rfl | ⟨1, _⟩ => rfl)

/-- The reference's result array is the step function of its arguments, with the recurrent drive the array its own
    first five operations compute. -/
theorem result_eq (x0 : (⟨S512x128x512, .f32⟩ : BufTy).Contents (Elt Ideal)) (x1 : (⟨S128x1024, .f32⟩ : BufTy).Contents (Elt Ideal))
    (x2 : (⟨S1024x512, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal)) :
    val_main_v19 (F := Ideal) x0 x1 x2 x3 x4 x5 = step x0 x1 x2 x3 (val_main_v4 (F := Ideal) x1 x4 x5) := by
  funext i
  rw [val_main_v19_apply, val_main_v18_apply, val_main_v11_apply, val_main_v9_apply, val_main_v10_apply, val_main_cst_apply,
    val_main_v17_apply, val_main_v16_apply, val_main_cst_0_apply, val_main_v15_apply, val_main_call0_v0_apply,
    val_main_call0_cst_apply, val_main_v14_apply, val_main_v8_apply, val_main_v5_apply, val_main_v7_apply, val_main_v6_apply,
    val_main_v13_apply, val_main_v12_apply, hid_idx, rec_idx, bin_idx]
  simp only [x_idx, win_idx]
  show _ = stepAt x0 x1 x2 x3 (val_main_v4 (F := Ideal) x1 x4 x5) (i 0) (i 1) (i 2)
  unfold stepAt drive
  simp only [Ideal.addf_def, Ideal.mulf_def, Ideal.maximumf_def, Ideal.ofBits_def, Ideal.ofBits_zero_f32]
  rfl

end Cert.ReferenceIdeal.RefStep

end
-- ==== Proof.RecDrive.lean ====
/-
  The recurrent drive is one array on both sides.

  Before its region the kernel's @main computes `hid · W_hᵀ + b_h` with host operations: it re-formats the state and the
  transposed recurrent weights (no value changes), contracts them, and adds the bias broadcast along rows. The
  reference's first five operations are the same contraction and the same broadcast sum, without the re-formatting.
  Over the extended reals the two terms are one term, so the equation holds by unfolding.
-/
import proofs.«103562_j50208167690605_1_alg».proof.Proof.KernelStep
import proofs.«103562_j50208167690605_1_alg».proof.Proof.RefStep

noncomputable section

namespace Cert.KernelIdeal.RecDrive

open Cert.KernelIdeal Cert.KernelIdeal.Gen Cert.KernelIdeal.KernelStep Idealize.ShloMosaic Idealize.ShloMosaic.TcCoe Idealize.SL.Sem
open Idealize.ShloMosaic.StableHlo

variable (m : (ℓ : Loc nD τ sig) → Buf (Elt Ideal) ℓ)

/-- The array the kernel's window 3 stages is the reference's recurrent drive of the same three arguments. -/
theorem rec_eq (c : Dev nD) : recArr m c
    = Cert.ReferenceIdeal.Read.val_main_v4 (F := Ideal) (m ((c : Thread nD τ).loc main_arg1)) (m ((c : Thread nD τ).loc main_arg4))
        (m ((c : Thread nD τ).loc main_arg5)) := by
  dsimp only [recArr, V, hostOps0]
  after_results <;> rfl

end Cert.KernelIdeal.RecDrive

end
-- ==== Proof.lean ====
/- The certificate of one leaky-integrator step computed by a tiled kernel against its plain reference.

   Both programs compute, for time step `t`, batch row `b` and unit `h`,

       hid (b, h) · keep + gain · max ( ( Σ_k x (t, b, k) · W_in (h, k) + b_in h ) + rec (b, h) , 0 ),    rec = hid · W_hᵀ + b_h,

   with the same two f32 words `keep`, `gain` and the same grouping of every sum (Proof/LeakyStep.lean). The kernel
   tiles the time axis in blocks of eight and does the input projection as one matrix product per block
   (Proof/BodyStep.lean, Proof/KernelStep.lean); the reference contracts the whole arrays (Proof/RefStep.lean); the
   recurrent drive is computed by host operations on both sides and is one array (Proof/RecDrive.lean). No law of
   arithmetic beyond re-indexing a finite sum is used, so finiteness of the inputs is never needed for the values.
   The three frames are the generated ones (the reference's is its run with the result dropped); the idealization
   rewrote nothing, so `preserves` has nothing to state. -/
import proofs.«103562_j50208167690605_1_alg».proof.Defs
import proofs.«103562_j50208167690605_1_alg».proof.Proof.Gen.Kernel
import proofs.«103562_j50208167690605_1_alg».proof.Proof.Gen.Kernel.Skeleton
import proofs.«103562_j50208167690605_1_alg».proof.Proof.Gen.Kernel.Launch
import proofs.«103562_j50208167690605_1_alg».proof.Proof.Gen.Kernel.Points
import proofs.«103562_j50208167690605_1_alg».proof.Proof.Gen.Kernel.Frame
import proofs.«103562_j50208167690605_1_alg».proof.Proof.Gen.KernelIdeal
import proofs.«103562_j50208167690605_1_alg».proof.Proof.Gen.KernelIdeal.Skeleton
import proofs.«103562_j50208167690605_1_alg».proof.Proof.Gen.KernelIdeal.Launch
import proofs.«103562_j50208167690605_1_alg».proof.Proof.Gen.KernelIdeal.Points
import proofs.«103562_j50208167690605_1_alg».proof.Proof.Gen.KernelIdeal.Frame
import proofs.«103562_j50208167690605_1_alg».proof.Proof.Gen.ReferenceIdeal
import proofs.«103562_j50208167690605_1_alg».proof.Proof.Gen.Pre_finite_inputs
import proofs.«103562_j50208167690605_1_alg».proof.Proof.Gen.KernelIdeal.Value
import proofs.«103562_j50208167690605_1_alg».proof.Proof.Gen.ReferenceIdeal.Run
import proofs.«103562_j50208167690605_1_alg».proof.Proof.Gen.ReferenceIdeal.Read
import proofs.«103562_j50208167690605_1_alg».proof.Proof.RecDrive
import Idealize.ShloMosaic.Adequacy
import Idealize.ShloMosaic.Init

noncomputable section

namespace Cert.Proof

open Idealize.ShloMosaic Idealize.ShloMosaic.TcCoe Idealize.SL.Sem Cert.LeakyStep

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the step function of the arguments in the first result and the state, untouched, in the
    second: the kernel by its blocks, the reference by its operations read at an index, the recurrent drive one array. -/
theorem algebraic : Cert.algebraic_KernelIdeal_ReferenceIdeal := by
  intro m ρ m' ρ' _ hagree
  refine ⟨fun c => step (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.KernelIdeal.KernelStep.recArr m c),
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.KernelStep.run m ρ)
  · refine (θ_run Cert.ReferenceIdeal.defs _ _).mono
      (fun r h c => ⟨(h c).1.trans ?_, (h c).2.1.trans (hagree c).2.1, (h c).2.2⟩)
      (Cert.ReferenceIdeal.Value.run (F := Ideal) m' ρ')
    dsimp only
    rw [Cert.ReferenceIdeal.Read.val_main_v19_eq, Cert.ReferenceIdeal.RefStep.result_eq, (hagree c).1, (hagree c).2.1,
      (hagree c).2.2.1, (hagree c).2.2.2.1, (hagree c).2.2.2.2.1, (hagree c).2.2.2.2.2, Cert.KernelIdeal.RecDrive.rec_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
